-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1 : Shape := ⟨1, ![1]⟩
abbrev S1x1 : Shape := ⟨2, ![1, 1]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 112
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1, .i32⟩
  | .hbm, ⟨56, _⟩ => ⟨S_, .i32⟩
  | .hbm, ⟨57, _⟩ => ⟨S1700000x1, .i32⟩
  | .hbm, ⟨58, _⟩ => ⟨S1700000x1, .i1⟩
  | .hbm, ⟨59, _⟩ => ⟨S1x1, .i32⟩
  | .hbm, ⟨60, _⟩ => ⟨S1700000x1, .i32⟩
  | .hbm, ⟨61, _⟩ => ⟨S1700000x1, .i1⟩
  | .hbm, ⟨62, _⟩ => ⟨S1700000x1, .i1⟩
  | .hbm, ⟨63, _⟩ => ⟨S_, .i1⟩
  | .hbm, ⟨64, _⟩ => ⟨S1700000, .i1⟩
  | .hbm, ⟨65, _⟩ => ⟨S1700000x64, .f32⟩
  | .hbm, ⟨66, _⟩ => ⟨S1700000x64, .i1⟩
  | .hbm, ⟨67, _⟩ => ⟨S_, .f32⟩
  | .hbm, ⟨68, _⟩ => ⟨S1700000x64, .f32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x32, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1, .i32⟩
  | .hbm, ⟨88, _⟩ => ⟨S_, .i32⟩
  | .hbm, ⟨89, _⟩ => ⟨S1700000x1, .i32⟩
  | .hbm, ⟨90, _⟩ => ⟨S1700000x1, .i1⟩
  | .hbm, ⟨91, _⟩ => ⟨S1x1, .i32⟩
  | .hbm, ⟨92, _⟩ => ⟨S1700000x1, .i32⟩
  | .hbm, ⟨93, _⟩ => ⟨S1700000x1, .i1⟩
  | .hbm, ⟨94, _⟩ => ⟨S1700000x1, .i1⟩
  | .hbm, ⟨95, _⟩ => ⟨S_, .i1⟩
  | .hbm, ⟨96, _⟩ => ⟨S1700000, .i1⟩
  | .hbm, ⟨97, _⟩ => ⟨S1700000x32, .f32⟩
  | .hbm, ⟨98, _⟩ => ⟨S1700000x32, .i1⟩
  | .hbm, ⟨99, _⟩ => ⟨S_, .f32⟩
  | .hbm, ⟨100, _⟩ => ⟨S1700000x32, .f32⟩
  | .hbm, ⟨101, _⟩ => ⟨S1700000x32, .f32⟩
  | .hbm, ⟨102, _⟩ => ⟨S1700000x1, .f32⟩
  | .hbm, ⟨103, _⟩ => ⟨S1700000x32, .f32⟩
  | .hbm, ⟨104, _⟩ => ⟨S1700000x32, .f32⟩
  | .hbm, ⟨105, _⟩ => ⟨S_, .f32⟩
  | .hbm, ⟨106, _⟩ => ⟨S100000x32, .f32⟩
  | .hbm, ⟨107, _⟩ => ⟨S1700000x1, .i32⟩
  | .hbm, ⟨108, _⟩ => ⟨S100000x32, .f32⟩
  | .hbm, ⟨109, _⟩ => ⟨S1x32, .f32⟩
  | .hbm, ⟨110, _⟩ => ⟨S100000x32, .f32⟩
  | .hbm, ⟨111, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_cst_7 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000_S1700000x32_0 : S1700000.BroadcastsInDim S1700000x32 (![0] : Fin 1 → Fin S1700000x32.rank)
  bcast_S_S1700000x32 : S_.BroadcastsInDim S1700000x32 (![] : Fin 0 → Fin S1700000x32.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Carry.lean ====
/-
  The buffers the regions do not touch, carried through the program.

  The index vectors (edge sources then node numbers; edge targets then node numbers), the per-edge normalisation
  `norm` and the argument arrays are written once, before the first Pallas region, by host operations that are the
  reference's own; no later host operation and no region writes them. So at every later boundary they still hold
  what those operations computed from the launch contents: the reference's stages `v3`, `v6`, `v29` of the edge list,
  and the arguments themselves.
-/
import proofs.«426370_j71030169141526_2_alg».proof.Proof.KernelRun
import proofs.«426370_j71030169141526_2_alg».proof.Proof.ReferenceRead
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The argument arrays as launched. -/
abbrev a0 (c : Dev nD) : FVec F S100000x128 .f32 := m ((c : Thread nD τ).loc main_arg0)
abbrev a1 (c : Dev nD) : IVec S2x1600000 32 := m ((c : Thread nD τ).loc main_arg1)
abbrev a2 (c : Dev nD) : FVec F S128x64 .f32 := m ((c : Thread nD τ).loc main_arg2)
abbrev a3 (c : Dev nD) : FVec F S64 .f32 := m ((c : Thread nD τ).loc main_arg3)
abbrev a4 (c : Dev nD) : FVec F S64x32 .f32 := m ((c : Thread nD τ).loc main_arg4)
abbrev a5 (c : Dev nD) : FVec F S32 .f32 := m ((c : Thread nD τ).loc main_arg5)

/-! ## At the first region's entry -/
set_option maxHeartbeats 4000000 in
theorem W3_v3 (c : Dev nD) : W3 m ρ c (Proc.devRef .tc main_v3) = Cert.ReferenceIdeal.ReadP.val_main_v3 (F := F) (a1 m c) := by
  dsimp only [W3, W2, W1]
  after_results_simp
  rfl
set_option maxHeartbeats 4000000 in
theorem W3_v6 (c : Dev nD) : W3 m ρ c (Proc.devRef .tc main_v6) = Cert.ReferenceIdeal.ReadP.val_main_v6 (F := F) (a1 m c) := by
  dsimp only [W3, W2, W1]
  after_results_simp
  rfl
set_option maxHeartbeats 4000000 in
theorem W3_v29 (c : Dev nD) : W3 m ρ c (Proc.devRef .tc main_v29) = Cert.ReferenceIdeal.ReadP.val_main_v29 (F := F) (a1 m c) := by
  dsimp only [W3, W2, W1]
  after_results_simp
  rfl
set_option maxHeartbeats 4000000 in
theorem W3_arg0 (c : Dev nD) : W3 m ρ c (Proc.devRef .tc main_arg0) = a0 m c := by
  dsimp only [W3, W2, W1]
  after_results_simp
set_option maxHeartbeats 4000000 in
theorem W3_arg2 (c : Dev nD) : W3 m ρ c (Proc.devRef .tc main_arg2) = a2 m c := by
  dsimp only [W3, W2, W1]
  after_results_simp
set_option maxHeartbeats 4000000 in
theorem W3_arg3 (c : Dev nD) : W3 m ρ c (Proc.devRef .tc main_arg3) = a3 m c := by
  dsimp only [W3, W2, W1]
  after_results_simp
set_option maxHeartbeats 4000000 in
theorem W3_arg4 (c : Dev nD) : W3 m ρ c (Proc.devRef .tc main_arg4) = a4 m c := by
  dsimp only [W3, W2, W1]
  after_results_simp
set_option maxHeartbeats 4000000 in
theorem W3_arg5 (c : Dev nD) : W3 m ρ c (Proc.devRef .tc main_arg5) = a5 m c := by
  dsimp only [W3, W2, W1]
  after_results_simp

/-! ## After the first region (which writes only its own output array) -/
theorem W4_v3 (c : Dev nD) : W4 m ρ c (Proc.devRef .tc main_v3) = Cert.ReferenceIdeal.ReadP.val_main_v3 (F := F) (a1 m c) :=
  (W4_of_ne m ρ c main_v3 (by decide)).trans (W3_v3 m ρ c)
theorem W4_v6 (c : Dev nD) : W4 m ρ c (Proc.devRef .tc main_v6) = Cert.ReferenceIdeal.ReadP.val_main_v6 (F := F) (a1 m c) :=
  (W4_of_ne m ρ c main_v6 (by decide)).trans (W3_v6 m ρ c)
theorem W4_v29 (c : Dev nD) : W4 m ρ c (Proc.devRef .tc main_v29) = Cert.ReferenceIdeal.ReadP.val_main_v29 (F := F) (a1 m c) :=
  (W4_of_ne m ρ c main_v29 (by decide)).trans (W3_v29 m ρ c)
theorem W4_arg3 (c : Dev nD) : W4 m ρ c (Proc.devRef .tc main_arg3) = a3 m c :=
  (W4_of_ne m ρ c main_arg3 (by decide)).trans (W3_arg3 m ρ c)
theorem W4_arg4 (c : Dev nD) : W4 m ρ c (Proc.devRef .tc main_arg4) = a4 m c :=
  (W4_of_ne m ρ c main_arg4 (by decide)).trans (W3_arg4 m ρ c)
theorem W4_arg5 (c : Dev nD) : W4 m ρ c (Proc.devRef .tc main_arg5) = a5 m c :=
  (W4_of_ne m ρ c main_arg5 (by decide)).trans (W3_arg5 m ρ c)

/-! ## At the second region's entry -/
set_option maxHeartbeats 4000000 in
theorem W6_v3 (c : Dev nD) : W6 m ρ c (Proc.devRef .tc main_v3) = Cert.ReferenceIdeal.ReadP.val_main_v3 (F := F) (a1 m c) := by
  dsimp only [W6, W5]
  after_results_simp
  exact W4_v3 m ρ c
set_option maxHeartbeats 4000000 in
theorem W6_v6 (c : Dev nD) : W6 m ρ c (Proc.devRef .tc main_v6) = Cert.ReferenceIdeal.ReadP.val_main_v6 (F := F) (a1 m c) := by
  dsimp only [W6, W5]
  after_results_simp
  exact W4_v6 m ρ c
set_option maxHeartbeats 4000000 in
theorem W6_v29 (c : Dev nD) : W6 m ρ c (Proc.devRef .tc main_v29) = Cert.ReferenceIdeal.ReadP.val_main_v29 (F := F) (a1 m c) := by
  dsimp only [W6, W5]
  after_results_simp
  exact W4_v29 m ρ c
set_option maxHeartbeats 4000000 in
theorem W6_arg4 (c : Dev nD) : W6 m ρ c (Proc.devRef .tc main_arg4) = a4 m c := by
  dsimp only [W6, W5]
  after_results_simp
  exact W4_arg4 m ρ c
set_option maxHeartbeats 4000000 in
theorem W6_arg5 (c : Dev nD) : W6 m ρ c (Proc.devRef .tc main_arg5) = a5 m c := by
  dsimp only [W6, W5]
  after_results_simp
  exact W4_arg5 m ρ c

/-! ## After the second region -/
theorem W7_v3 (c : Dev nD) : W7 m ρ c (Proc.devRef .tc main_v3) = Cert.ReferenceIdeal.ReadP.val_main_v3 (F := F) (a1 m c) :=
  (W7_of_ne m ρ c main_v3 (by decide)).trans (W6_v3 m ρ c)
theorem W7_v6 (c : Dev nD) : W7 m ρ c (Proc.devRef .tc main_v6) = Cert.ReferenceIdeal.ReadP.val_main_v6 (F := F) (a1 m c) :=
  (W7_of_ne m ρ c main_v6 (by decide)).trans (W6_v6 m ρ c)
theorem W7_v29 (c : Dev nD) : W7 m ρ c (Proc.devRef .tc main_v29) = Cert.ReferenceIdeal.ReadP.val_main_v29 (F := F) (a1 m c) :=
  (W7_of_ne m ρ c main_v29 (by decide)).trans (W6_v29 m ρ c)
theorem W7_arg5 (c : Dev nD) : W7 m ρ c (Proc.devRef .tc main_arg5) = a5 m c :=
  (W7_of_ne m ρ c main_arg5 (by decide)).trans (W6_arg5 m ρ c)

end Cert.KernelIdeal.Carry

end
-- ==== Proof.MaskedTake.lean ====
/-
  A masked row gather is the plain row gather when every index is a valid row index.

  A gather of rows with out-of-range reads filled by a fixed pattern is spelt, over an index vector `idx` of
  1 700 000 words into a table of 100 000 rows: wrap a negative index once (`idx + 100000` where `idx < 0`), gather at
  the wrapped index, and keep the gathered row only where the wrapped index lies in `[0, 99999]`, else the fill.
  When every word of `idx` lies in `[-100000, 100000)` the wrapped index always lies in `[0, 99999]`, the test is
  true everywhere, and the selection returns the gathered rows.

  The index vector here is 1 600 000 edge sources followed by the node numbers `0 … 99999` (one self-loop per node);
  the node numbers are in range by construction, the edge sources by hypothesis.
-/
import Idealize.ShloMosaic.PureOps
import Idealize.ShloMosaic.Lib.Pipeline.Value
import Idealize.ShloMosaic.Lib.StableHlo.Predicate

namespace Cert.MaskedTake

open Idealize.ShloMosaic

/-! ## Signed comparisons of 32-bit words, as comparisons of integers -/

theorem sge_iff (a b : BitVec 32) : IntOp.cmpi .sge a b = 1#1 ↔ b.toInt ≤ a.toInt := by
  simp only [IntOp.cmpi, StableHlo.Predicate.ofBool_eq_one_iff, BitVec.sle, decide_eq_true_eq]
theorem sle_iff (a b : BitVec 32) : IntOp.cmpi .sle a b = 1#1 ↔ a.toInt ≤ b.toInt := by
  simp only [IntOp.cmpi, StableHlo.Predicate.ofBool_eq_one_iff, BitVec.sle, decide_eq_true_eq]
theorem slt_iff (a b : BitVec 32) : IntOp.cmpi .slt a b = 1#1 ↔ a.toInt < b.toInt := by
  simp only [IntOp.cmpi, StableHlo.Predicate.ofBool_eq_one_iff, BitVec.slt, decide_eq_true_eq]

/-- A word's signed value is its unsigned value below 2³¹, and that less 2³² from there on. -/
theorem toInt_cases (w : BitVec 32) :
    (w.toNat < 2147483648 ∧ w.toInt = (w.toNat : Int)) ∨ (2147483648 ≤ w.toNat ∧ w.toInt = (w.toNat : Int) - 4294967296) := by
  have := w.isLt
  rw [BitVec.toInt_eq_toNat_cond]
  by_cases h : 2 * w.toNat < 2 ^ 32
  · left; rw [if_pos h]; exact ⟨by omega, rfl⟩
  · right; rw [if_neg h]; exact ⟨by omega, by omega⟩

theorem toInt_neg_hundred_thousand : (4294867296#32 : BitVec 32).toInt = -100000 := by decide
theorem toInt_hundred_thousand : (100000#32 : BitVec 32).toInt = 100000 := by decide
theorem toInt_zero32 : (0#32 : BitVec 32).toInt = 0 := by decide
theorem toInt_top_row : (99999#32 : BitVec 32).toInt = 99999 := by decide

/-! ## Valid indices and the wrap -/

/-- A word is a valid index into an axis of 100 000 rows, negative indices counting from the end:
    `-100000 ≤ w < 100000` as a signed word. -/
def Valid (w : BitVec 32) : Prop :=
  IntOp.cmpi .sge w 4294867296#32 = 1#1 ∧ IntOp.cmpi .slt w 100000#32 = 1#1

theorem valid_iff (w : BitVec 32) : Valid w ↔ -100000 ≤ w.toInt ∧ w.toInt < 100000 := by
  unfold Valid
  rw [sge_iff, slt_iff, toInt_neg_hundred_thousand, toInt_hundred_thousand]

/-- The index after one wrap of a negative value. -/
def wrap (w : BitVec 32) : BitVec 32 := Scalar.select (IntOp.cmpi .slt w 0#32) (IntOp.addi w 100000#32) w

/-- A valid index, wrapped, lies in `[0, 99999]`. -/
theorem wrap_in_range (w : BitVec 32) (hw : Valid w) :
    IntOp.cmpi .sge (wrap w) 0#32 = 1#1 ∧ IntOp.cmpi .sle (wrap w) 99999#32 = 1#1 := by
  rw [valid_iff] at hw
  obtain ⟨h1, h2⟩ := hw
  rw [sge_iff, sle_iff, toInt_zero32, toInt_top_row]
  unfold wrap Scalar.select
  by_cases hneg : IntOp.cmpi .slt w 0#32 = 1
  · rw [if_pos hneg]
    replace hneg : IntOp.cmpi .slt w 0#32 = 1#1 := hneg
    rw [slt_iff, toInt_zero32] at hneg
    have hsum : (IntOp.addi w 100000#32).toNat = (w.toNat + 100000) % 4294967296 := by
      show (w + 100000#32).toNat = _
      rw [BitVec.toNat_add]; rfl
    have hwlt := w.isLt
    rcases toInt_cases w with ⟨a1, a2⟩ | ⟨a1, a2⟩
    · omega
    · rcases toInt_cases (IntOp.addi w 100000#32) with ⟨b1, b2⟩ | ⟨b1, b2⟩ <;> omega
  · rw [if_neg hneg]
    replace hneg : ¬ IntOp.cmpi .slt w 0#32 = 1#1 := hneg
    rw [slt_iff, toInt_zero32] at hneg
    omega

/-- A node number is a valid index. -/
theorem valid_ofNat (p : Nat) (hp : p < 100000) : Valid (BitVec.ofNat 32 p) := by
  rw [valid_iff]
  have hn : (BitVec.ofNat 32 p).toNat = p := by
    rw [BitVec.toNat_ofNat]; exact Nat.mod_eq_of_lt (by omega)
  rcases toInt_cases (BitVec.ofNat 32 p) with ⟨a1, a2⟩ | ⟨a1, a2⟩ <;> omega

/-! ## The index vector: edge sources, then the node numbers -/

abbrev Edges : Shape := ⟨1, ![1600000]⟩
abbrev Nodes : Shape := ⟨1, ![100000]⟩
abbrev EdgesAndLoops : Shape := ⟨1, ![1700000]⟩

/-- Every word of "the edge sources, then `0 … 99999`" is a valid index when every edge source is. -/
theorem valid_concat (src : IVec Edges 32) (hsrc : ∀ e, Valid (src e))
    (h : Shape.Concatenates [Edges, Nodes] EdgesAndLoops 0) (j : EdgesAndLoops.Idx) :
    Valid (concatenate EdgesAndLoops 0 [⟨Edges, src⟩, ⟨Nodes, iotaInDim Nodes 32 0⟩] h j) := by
  have hj : (j 0).val < 1700000 := (j 0).isLt
  by_cases hlt : (j 0).val < 1600000
  · rw [concatenate_pair_apply_left 0 src (iotaInDim Nodes 32 0) h j rfl (Shape.Idx.ofFin ⟨(j 0).val, hlt⟩)
      (fun b => by match b with | ⟨0, _⟩ => rfl)]
    exact hsrc _
  · have hp : (j 0).val - 1600000 < 100000 := by omega
    rw [concatenate_pair_apply_right 0 src (iotaInDim Nodes 32 0) h j rfl rfl (Shape.Idx.ofFin ⟨(j 0).val - 1600000, hp⟩)
      (fun b hb => absurd (Fin.ext (show (b.cast rfl : Fin EdgesAndLoops.rank).val = (0 : Fin EdgesAndLoops.rank).val from Nat.lt_one_iff.mp b.isLt)) hb)
      (by show (j 0).val - 1600000 + 1600000 = (j 0).val; omega)]
    rw [StableHlo.Predicate.iota_apply]
    exact valid_ofNat _ hp

/-! ## The test is true everywhere, and the selection returns the gathered rows -/

theorem foldl_andi_ones {ι : Type} (l : List ι) :
    l.foldl (fun r (_ : ι) => IntOp.andi r (1#1 : BitVec 1)) (1#1) = 1#1 := by
  induction l with
  | nil => rfl
  | cons a l ih => rw [List.foldl_cons, show IntOp.andi (1#1 : BitVec 1) 1#1 = 1#1 from by decide]; exact ih

/-- A reduction by `and` of an all-ones array, from one, is all ones. -/
theorem reduce_andi_ones {s t u : Shape} {axes : List (Fin s.rank)} (x : s.Idx → BitVec 1) (hx : ∀ i, x i = 1#1)
    (init : u.Idx → BitVec 1) (hinit : ∀ k, init k = 1#1) (h : s.ReducesTo axes t) (hu : 0 < u.numel) (j : t.Idx) :
    Host.reduce IntOp.andi x init h hu j = 1#1 := by
  obtain rfl : x = fun _ => 1#1 := funext hx
  unfold Host.reduce
  rw [hinit]
  exact foldl_andi_ones _

/-- A selection under an all-ones mask returns its first operand. -/
theorem select_of_ones {s : Shape} {α : Type} (c : IVec s 1) (hc : ∀ i, c i = 1#1) (a b : s.Idx → α) : select c a b = a := by
  funext i
  show Scalar.select (c i) (a i) (b i) = a i
  rw [hc i]; rfl

/-- THE MASKED GATHER IS THE GATHER. Over an index column `I` (the wrapped indices as an [n × 1] column), bounds columns
    that are `0` and `99999` everywhere, the test "`0 ≤ I` and `I ≤ 99999`" reduced by `and` along the unit axis and
    broadcast over the rows' width: when every wrapped index lies in `[0, 99999]`, selecting the gathered rows `g`
    under that test against any fill returns `g`. -/
theorem masked_eq {col out row : Shape} {u : Shape} {α : Type} (I lo hi : IVec col 32)
    (hlo : ∀ q, lo q = 0#32) (hhi : ∀ q, hi q = 99999#32)
    (hI : ∀ q, IntOp.cmpi .sge (I q) 0#32 = 1#1 ∧ IntOp.cmpi .sle (I q) 99999#32 = 1#1)
    (init : u.Idx → BitVec 1) (hinit : ∀ k, init k = 1#1) {axes : List (Fin col.rank)} (hr : col.ReducesTo axes row) (hu : 0 < u.numel)
    (dims : Fin row.rank → Fin out.rank) (hb : row.BroadcastsInDim out dims) (g fill : out.Idx → α) :
    select (broadcastInDim out dims hb (Host.reduce IntOp.andi (andi (cmpi .sge I lo) (cmpi .sle I hi)) init hr hu)) g fill = g := by
  refine select_of_ones _ (fun i => ?_) g fill
  show Host.reduce IntOp.andi (andi (cmpi .sge I lo) (cmpi .sle I hi)) init hr hu _ = 1#1
  refine reduce_andi_ones _ (fun q => ?_) init hinit hr hu _
  show IntOp.andi (IntOp.cmpi .sge (I q) (lo q)) (IntOp.cmpi .sle (I q) (hi q)) = 1#1
  rw [hlo q, hhi q, (hI q).1, (hI q).2]; decide

/-! ## The whole spelling at once -/

abbrev Scalar0 : Shape := ⟨0, ![]⟩
abbrev Single : Shape := ⟨1, ![1]⟩
abbrev SingleCell : Shape := ⟨2, ![1, 1]⟩
abbrev Column : Shape := ⟨2, ![1700000, 1]⟩

/-- THE MASKED ROW GATHER OF VALID INDICES IS THE ROW GATHER, in the spelling a gather with fill takes: the index
    vector `idx` wrapped once where negative and laid out as a column; the column compared with `0` and with `99999`
    (a scalar `0` broadcast; a one-entry vector `99999` broadcast through a [1 × 1] cell), the two tests joined,
    reduced by `and` along the unit axis from `true`, and broadcast over the width of the rows. Stated for any proofs
    of the shape relations the broadcasts and the reduction take, and any gathered rows `g` and fill. -/
theorem take_eq_gather {out : Shape} {α : Type} (idx : IVec EdgesAndLoops 32) (hidx : ∀ e, Valid (idx e))
    (h0 : Scalar0.BroadcastsInDim EdgesAndLoops (![] : Fin 0 → Fin EdgesAndLoops.rank))
    (hc : EdgesAndLoops.BroadcastsInDim Column (![0] : Fin 1 → Fin Column.rank))
    (h0c : Scalar0.BroadcastsInDim Column (![] : Fin 0 → Fin Column.rank))
    (h1 : Single.BroadcastsInDim SingleCell (![1] : Fin 1 → Fin SingleCell.rank))
    (h11 : SingleCell.BroadcastsInDim Column (![0, 1] : Fin 2 → Fin Column.rank))
    (hr : Column.ReducesTo [1] EdgesAndLoops) (hu : 0 < Scalar0.numel)
    (dims : Fin EdgesAndLoops.rank → Fin out.rank) (hbo : EdgesAndLoops.BroadcastsInDim out dims) (g fill : out.Idx → α) :
    select (broadcastInDim out dims hbo
      (Host.reduce IntOp.andi
        (andi
          (cmpi .sge (broadcastInDim Column ![0] hc (select (cmpi .slt idx (broadcastInDim EdgesAndLoops ![] h0 (constantI Scalar0 32 0#32))) (addi idx (broadcastInDim EdgesAndLoops ![] h0 (constantI Scalar0 32 100000#32))) idx))
            (broadcastInDim Column ![] h0c (constantI Scalar0 32 0#32)))
          (cmpi .sle (broadcastInDim Column ![0] hc (select (cmpi .slt idx (broadcastInDim EdgesAndLoops ![] h0 (constantI Scalar0 32 0#32))) (addi idx (broadcastInDim EdgesAndLoops ![] h0 (constantI Scalar0 32 100000#32))) idx))
            (broadcastInDim Column ![0, 1] h11 (broadcastInDim SingleCell ![1] h1 (constantI Single 32 99999#32)))))
        (constantI Scalar0 1 1#1) hr hu)) g fill = g :=
  masked_eq _ _ _ (fun _ => rfl) (fun _ => rfl) (fun q => wrap_in_range _ (hidx _)) _ (fun _ => rfl) hr hu dims hbo g fill

end Cert.MaskedTake
-- ==== Proof.Tails.lean ====
/-
  The two aggregations, read off the host operations around the Pallas regions.

  After each region the program gathers the rows of the region's output at the edge sources (masked gather), scales
  row `e` by `norm e`, and scatter-adds the rows at the edge targets into zeros; after the second it also adds the bias.
  Over ANY contents `V` of the buffers at the region's exit, with the index vectors `src`, `dst`, the vector `norm` and
  the table `M` named, and every entry of `src` a valid row index, the buffer the stretch ends on holds
  `agg M = scatter_add (zeros, dst, gather (M, wrap src) · norm)`; and for the reference's own stages in the places of
  `src`, `dst`, `norm` that is the reference's aggregation stage of `M`.
-/
import proofs.«426370_j71030169141526_2_alg».proof.Proof.Gen.KernelIdeal.Launch
import proofs.«426370_j71030169141526_2_alg».proof.Proof.ReferenceRead
import proofs.«426370_j71030169141526_2_alg».proof.Proof.MaskedTake
import Idealize.ShloMosaic.Lib.StableHlo.Run

set_option maxRecDepth 16384

noncomputable section

namespace Cert.KernelIdeal.Tails

open Cert.KernelIdeal Cert.KernelIdeal.Gen
open Idealize.ShloMosaic Idealize.ShloMosaic.TcCoe Idealize.SL.Sem Idealize.ShloMosaic.StableHlo
open Cert.MaskedTake (Valid)

variable {F : FTy → Type} [FloatOps F]

/-! ## The pieces -/

/-- The index vector wrapped once where negative, as a column of start indices. -/
def wrappedColumn (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The two range tests on the wrapped index column, joined: `0 ≤ i` and `i ≤ 99999`. -/
def rangeTests (src : IVec S1700000 32) : IVec S1700000x1 1 :=
  andi (cmpi .sge (wrappedColumn src) (broadcastInDim S1700000x1 ![] bcast_S_S1700000x1 (constantI S_ 32 0#32)))
    (cmpi .sle (wrappedColumn src)
      (broadcastInDim S1700000x1 ![0, 1] bcast_S1x1_S1700000x1_0_1 (broadcastInDim S1x1 ![1] bcast_S1_S1x1_1 (constantI S1 32 99999#32))))

/-- On valid indices both tests are true at every entry. -/
theorem rangeTests_ones (src : IVec S1700000 32) (hv : ∀ e, Valid (src e)) (q : S1700000x1.Idx) : rangeTests src q = 1#1 := by
  show IntOp.andi (IntOp.cmpi .sge (Cert.MaskedTake.wrap (src _)) 0#32) (IntOp.cmpi .sle (Cert.MaskedTake.wrap (src _)) 99999#32) = 1#1
  obtain ⟨h1, h2⟩ := Cert.MaskedTake.wrap_in_range _ (hv _)
  rw [h1, h2]; decide

/-- The rows of a 64-wide table gathered at the wrapped sources, kept where a mask vector is set, else the fill. -/
def maskedBy64 (mask : IVec S1700000 1) (src : IVec S1700000 32) (M : FVec F S100000x64 .f32) : FVec F S1700000x64 .f32 :=
  select (broadcastInDim S1700000x64 ![0] bcast_S1700000_S1700000x64_0 mask)
    (Host.gather gather_S100000x64_S1700000x1_S1700000x64_1_0_n_n_0_1_164 M (wrappedColumn src))
    (broadcastInDim S1700000x64 ![] bcast_S_S1700000x64 (constant S_ .f32 0x7FC00000#32))

/-- The same for a 32-wide table. -/
def maskedBy32 (mask : IVec S1700000 1) (src : IVec S1700000 32) (M : FVec F S100000x32 .f32) : FVec F S1700000x32 .f32 :=
  select (broadcastInDim S1700000x32 ![0] bcast_S1700000_S1700000x32_0 mask)
    (Host.gather gather_S100000x32_S1700000x1_S1700000x32_1_0_n_n_0_1_132 M (wrappedColumn src))
    (broadcastInDim S1700000x32 ![] bcast_S_S1700000x32 (constant S_ .f32 0x7FC00000#32))

/-- Under an all-ones mask the masked rows are the gathered rows. -/
theorem maskedBy64_ones (mask : IVec S1700000 1) (hm : ∀ e, mask e = 1#1) (src : IVec S1700000 32) (M : FVec F S100000x64 .f32) :
    maskedBy64 mask src M = Host.gather gather_S100000x64_S1700000x1_S1700000x64_1_0_n_n_0_1_164 M (wrappedColumn src) :=
  Cert.MaskedTake.select_of_ones _ (fun _ => hm _) _ _

theorem maskedBy32_ones (mask : IVec S1700000 1) (hm : ∀ e, mask e = 1#1) (src : IVec S1700000 32) (M : FVec F S100000x32 .f32) :
    maskedBy32 mask src M = Host.gather gather_S100000x32_S1700000x1_S1700000x32_1_0_n_n_0_1_132 M (wrappedColumn src) :=
  Cert.MaskedTake.select_of_ones _ (fun _ => hm _) _ _

/-- Scale row `e` of 64-wide rows by `norm e` and scatter-add the rows at the targets into zeros. -/
def scatterScaled64 (rows : FVec F S1700000x64 .f32) (dst : IVec S1700000 32) (norm : FVec F S1700000 .f32) : FVec F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (mulf rows (broadcastInDim S1700000x64 ![0, 1] bcast_S1700000x1_S1700000x64_0_1 (broadcastInDim S1700000x1 ![0] bcast_S1700000_S1700000x1_0 norm)))

/-- The same for 32-wide rows, and a bias vector added to every row of the result. -/
def scatterScaled32 (rows : FVec F S1700000x32 .f32) (dst : IVec S1700000 32) (norm : FVec F S1700000 .f32) (b : FVec F S32 .f32) : FVec F S100000x32 .f32 :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 dst)
      (mulf rows (broadcastInDim S1700000x32 ![0, 1] bcast_S1700000x1_S1700000x32_0_1 (broadcastInDim S1700000x1 ![0] bcast_S1700000_S1700000x1_0 norm))))
    (broadcastInDim S100000x32 ![0, 1] bcast_S1x32_S100000x32_0_1 (broadcastInDim S1x32 ![1] bcast_S32_S1x32_1 b))

/-- Gather the rows of a 64-wide table at the sources, scale, scatter-add at the targets. -/
def agg64 (src dst : IVec S1700000 32) (norm : FVec F S1700000 .f32) (M : FVec F S100000x64 .f32) : FVec F S100000x64 .f32 :=
  scatterScaled64 (Host.gather gather_S100000x64_S1700000x1_S1700000x64_1_0_n_n_0_1_164 M (wrappedColumn src)) dst norm

/-- The same for a 32-wide table, plus the bias. -/
def agg32 (src dst : IVec S1700000 32) (norm : FVec F S1700000 .f32) (M : FVec F S100000x32 .f32) (b : FVec F S32 .f32) : FVec F S100000x32 .f32 :=
  scatterScaled32 (Host.gather gather_S100000x32_S1700000x1_S1700000x32_1_0_n_n_0_1_132 M (wrappedColumn src)) dst norm b

/-! ## Stripping the typed-reference transports (each the identity, its buffer's type being the value's) -/

theorem strip_mask64 (mask : IVec S1700000 1) :
    ((TRef.of (sig := sig) (T := ⟨S1700000x64, .i1⟩) main_call1_v14).ofBuf (Val := Elt F) ((TRef.of (sig := sig) (T := ⟨S1700000x64, .i1⟩) main_call1_v14).toBuf (Val := Elt F) (broadcastInDim S1700000x64 ![0] bcast_S1700000_S1700000x64_0 ((TRef.of (sig := sig) (T := ⟨S1700000, .i1⟩) main_call1_v12).ofBuf (Val := Elt F) ((TRef.of (sig := sig) (T := ⟨S1700000, .i1⟩) main_call1_v12).toBuf (Val := Elt F) mask)))))
      = broadcastInDim S1700000x64 ![0] bcast_S1700000_S1700000x64_0 mask := rfl

theorem strip_fill64 :
    ((TRef.of (sig := sig) (T := ⟨S1700000x64, .f32⟩) main_call1_v15).ofBuf (Val := Elt F) ((TRef.of (sig := sig) (T := ⟨S1700000x64, .f32⟩) main_call1_v15).toBuf (Val := Elt F) (broadcastInDim S1700000x64 ![] bcast_S_S1700000x64 ((TRef.of (sig := sig) (T := ⟨S_, .f32⟩) main_call1_cst).ofBuf (Val := Elt F) ((TRef.of (sig := sig) (T := ⟨S_, .f32⟩) main_call1_cst).toBuf (Val := Elt F) (constant S_ .f32 0x7FC00000#32))))))
      = broadcastInDim S1700000x64 ![] bcast_S_S1700000x64 (constant (F := F) S_ .f32 0x7FC00000#32) := rfl

theorem strip_rows64 (src : IVec S1700000 32) (M : FVec F S100000x64 .f32) :
    ((TRef.of (sig := sig) (T := ⟨S1700000x64, .f32⟩) main_call1_v13).ofBuf (Val := Elt F) ((TRef.of (sig := sig) (T := ⟨S1700000x64, .f32⟩) main_call1_v13).toBuf (Val := Elt F) (Host.gather gather_S100000x64_S1700000x1_S1700000x64_1_0_n_n_0_1_164 ((TRef.of (sig := sig) (T := ⟨S100000x64, .f32⟩) main_v30).ofBuf (Val := Elt F) M) ((TRef.of (sig := sig) (T := ⟨S1700000x1, .i32⟩) main_call1_v5).ofBuf (Val := Elt F) ((TRef.of (sig := sig) (T := ⟨S1700000x1, .i32⟩) main_call1_v5).toBuf (Val := Elt F) (broadcastInDim S1700000x1 ![0] bcast_S1700000_S1700000x1_0 ((TRef.of (sig := sig) (T := ⟨S1700000, .i32⟩) main_call1_v4).ofBuf (Val := Elt F) ((TRef.of (sig := sig) (T := ⟨S1700000, .i32⟩) main_call1_v4).toBuf (Val := Elt F) (select ((TRef.of (sig := sig) (T := ⟨S1700000, .i1⟩) main_call1_v1).ofBuf (Val := Elt F) ((TRef.of (sig := sig) (T := ⟨S1700000, .i1⟩) main_call1_v1).toBuf (Val := Elt F) (cmpi .slt ((TRef.of (sig := sig) (T := ⟨S1700000, .i32⟩) main_v3).ofBuf (Val := Elt F) src) ((TRef.of (sig := sig) (T := ⟨S1700000, .i32⟩) main_call1_v0).ofBuf (Val := Elt F) ((TRef.of (sig := sig) (T := ⟨S1700000, .i32⟩) main_call1_v0).toBuf (Val := Elt F) (broadcastInDim S1700000 ![] bcast_S_S1700000 ((TRef.of (sig := sig) (T := ⟨S_, .i32⟩) main_call1_c).ofBuf (Val := Elt F) ((TRef.of (sig := sig) (T := ⟨S_, .i32⟩) main_call1_c).toBuf (Val := Elt F) (constantI S_ 32 0#32))))))))) ((TRef.of (sig := sig) (T := ⟨S1700000, .i32⟩) main_call1_v3).ofBuf (Val := Elt F) ((TRef.of (sig := sig) (T := ⟨S1700000, .i32⟩) main_call1_v3).toBuf (Val := Elt F) (addi ((TRef.of (sig := sig) (T := ⟨S1700000, .i32⟩) main_v3).ofBuf (Val := Elt F) src) ((TRef.of (sig := sig) (T := ⟨S1700000, .i32⟩) main_call1_v2).ofBuf (Val := Elt F) ((TRef.of (sig := sig) (T := ⟨S1700000, .i32⟩) main_call1_v2).toBuf (Val := Elt F) (broadcastInDim S1700000 ![] bcast_S_S1700000 ((TRef.of (sig := sig) (T := ⟨S_, .i32⟩) main_call1_c_0).ofBuf (Val := Elt F) ((TRef.of (sig := sig) (T := ⟨S_, .i32⟩) main_call1_c_0).toBuf (Val := Elt F) (constantI S_ 32 100000#32))))))))) ((TRef.of (sig := sig) (T := ⟨S1700000, .i32⟩) main_v3).ofBuf (Val := Elt F) src))))))))))
      = Host.gather gather_S100000x64_S1700000x1_S1700000x64_1_0_n_n_0_1_164 M (wrappedColumn src) := rfl

theorem strip_mask32 (mask : IVec S1700000 1) :
    ((TRef.of (sig := sig) (T := ⟨S1700000x32, .i1⟩) main_call2_v14).ofBuf (Val := Elt F) ((TRef.of (sig := sig) (T := ⟨S1700000x32, .i1⟩) main_call2_v14).toBuf (Val := Elt F) (broadcastInDim S1700000x32 ![0] bcast_S1700000_S1700000x32_0 ((TRef.of (sig := sig) (T := ⟨S1700000, .i1⟩) main_call2_v12).ofBuf (Val := Elt F) ((TRef.of (sig := sig) (T := ⟨S1700000, .i1⟩) main_call2_v12).toBuf (Val := Elt F) mask)))))
      = broadcastInDim S1700000x32 ![0] bcast_S1700000_S1700000x32_0 mask := rfl

theorem strip_fill32 :
    ((TRef.of (sig := sig) (T := ⟨S1700000x32, .f32⟩) main_call2_v15).ofBuf (Val := Elt F) ((TRef.of (sig := sig) (T := ⟨S1700000x32, .f32⟩) main_call2_v15).toBuf (Val := Elt F) (broadcastInDim S1700000x32 ![] bcast_S_S1700000x32 ((TRef.of (sig := sig) (T := ⟨S_, .f32⟩) main_call2_cst).ofBuf (Val := Elt F) ((TRef.of (sig := sig) (T := ⟨S_, .f32⟩) main_call2_cst).toBuf (Val := Elt F) (constant S_ .f32 0x7FC00000#32))))))
      = broadcastInDim S1700000x32 ![] bcast_S_S1700000x32 (constant (F := F) S_ .f32 0x7FC00000#32) := rfl

theorem strip_rows32 (src : IVec S1700000 32) (M : FVec F S100000x32 .f32) :
    ((TRef.of (sig := sig) (T := ⟨S1700000x32, .f32⟩) main_call2_v13).ofBuf (Val := Elt F) ((TRef.of (sig := sig) (T := ⟨S1700000x32, .f32⟩) main_call2_v13).toBuf (Val := Elt F) (Host.gather gather_S100000x32_S1700000x1_S1700000x32_1_0_n_n_0_1_132 ((TRef.of (sig := sig) (T := ⟨S100000x32, .f32⟩) main_v39).ofBuf (Val := Elt F) M) ((TRef.of (sig := sig) (T := ⟨S1700000x1, .i32⟩) main_call2_v5).ofBuf (Val := Elt F) ((TRef.of (sig := sig) (T := ⟨S1700000x1, .i32⟩) main_call2_v5).toBuf (Val := Elt F) (broadcastInDim S1700000x1 ![0] bcast_S1700000_S1700000x1_0 ((TRef.of (sig := sig) (T := ⟨S1700000, .i32⟩) main_call2_v4).ofBuf (Val := Elt F) ((TRef.of (sig := sig) (T := ⟨S1700000, .i32⟩) main_call2_v4).toBuf (Val := Elt F) (select ((TRef.of (sig := sig) (T := ⟨S1700000, .i1⟩) main_call2_v1).ofBuf (Val := Elt F) ((TRef.of (sig := sig) (T := ⟨S1700000, .i1⟩) main_call2_v1).toBuf (Val := Elt F) (cmpi .slt ((TRef.of (sig := sig) (T := ⟨S1700000, .i32⟩) main_v3).ofBuf (Val := Elt F) src) ((TRef.of (sig := sig) (T := ⟨S1700000, .i32⟩) main_call2_v0).ofBuf (Val := Elt F) ((TRef.of (sig := sig) (T := ⟨S1700000, .i32⟩) main_call2_v0).toBuf (Val := Elt F) (broadcastInDim S1700000 ![] bcast_S_S1700000 ((TRef.of (sig := sig) (T := ⟨S_, .i32⟩) main_call2_c).ofBuf (Val := Elt F) ((TRef.of (sig := sig) (T := ⟨S_, .i32⟩) main_call2_c).toBuf (Val := Elt F) (constantI S_ 32 0#32))))))))) ((TRef.of (sig := sig) (T := ⟨S1700000, .i32⟩) main_call2_v3).ofBuf (Val := Elt F) ((TRef.of (sig := sig) (T := ⟨S1700000, .i32⟩) main_call2_v3).toBuf (Val := Elt F) (addi ((TRef.of (sig := sig) (T := ⟨S1700000, .i32⟩) main_v3).ofBuf (Val := Elt F) src) ((TRef.of (sig := sig) (T := ⟨S1700000, .i32⟩) main_call2_v2).ofBuf (Val := Elt F) ((TRef.of (sig := sig) (T := ⟨S1700000, .i32⟩) main_call2_v2).toBuf (Val := Elt F) (broadcastInDim S1700000 ![] bcast_S_S1700000 ((TRef.of (sig := sig) (T := ⟨S_, .i32⟩) main_call2_c_0).ofBuf (Val := Elt F) ((TRef.of (sig := sig) (T := ⟨S_, .i32⟩) main_call2_c_0).toBuf (Val := Elt F) (constantI S_ 32 100000#32))))))))) ((TRef.of (sig := sig) (T := ⟨S1700000, .i32⟩) main_v3).ofBuf (Val := Elt F) src))))))))))
      = Host.gather gather_S100000x32_S1700000x1_S1700000x32_1_0_n_n_0_1_132 M (wrappedColumn src) := rfl

/-! ## The host stretches -/

set_option maxHeartbeats 4000000 in
/-- The host operations between the two regions leave the aggregation of the first region's output. -/
theorem first_tail (V : Valuation τ sig (Elt F)) (src dst : IVec S1700000 32) (norm : FVec F S1700000 .f32) (M : FVec F S100000x64 .f32)
    (hsrc : V (Proc.devRef .tc main_v3) = src) (hdst : V (Proc.devRef .tc main_v6) = dst)
    (hnorm : V (Proc.devRef .tc main_v29) = norm) (hM : V (Proc.devRef .tc main_v30) = M) (hv : ∀ e, Valid (src e)) :
    StableHlo.after hostOps1_1 (StableHlo.after hostOps1 V) (Proc.devRef .tc main_v37) = agg64 src dst norm M := by
  after_results_simp
  rw [hsrc, hdst, hnorm, hM]
  -- the reduced range test, as an opaque vector that is all ones
  generalize hmk : Host.reduce IntOp.andi _ _ reducesTo_S1700000x1_S1700000_d1 h_S_ = mask
  have hones : ∀ e, mask e = 1#1 := fun e => by
    rw [← hmk]
    exact Cert.MaskedTake.reduce_andi_ones _ (fun q => rangeTests_ones src hv q) _ (fun _ => rfl) _ _ e
  -- only the rows differ from `agg64`'s spelling
  refine Eq.trans (congrArg (fun rows : FVec F S1700000x64 .f32 =>
      Host.scatterAdd scatter_S100000x64_S1700000x1_S1700000x64_1_0_0_1
        (broadcastInDim S100000x64 ![] bcast_S_S100000x64 (constant S_ .f32 0x00000000#32))
        (broadcastInDim S1700000x1 ![0] bcast_S1700000_S1700000x1_0 dst)
        (mulf rows (broadcastInDim S1700000x64 ![0, 1] bcast_S1700000x1_S1700000x64_0_1 (broadcastInDim S1700000x1 ![0] bcast_S1700000_S1700000x1_0 norm))))
    (?_ : _ = Host.gather gather_S100000x64_S1700000x1_S1700000x64_1_0_n_n_0_1_164 M (wrappedColumn src))) rfl
  refine Eq.trans ?_ (maskedBy64_ones mask hones src M)
  unfold maskedBy64
  show select _ _ _ = select _ _ _
  refine congr (congr (congrArg select ?_) ?_) ?_
  · exact strip_mask64 mask
  · exact strip_rows64 src M
  · exact strip_fill64

set_option maxHeartbeats 4000000 in
/-- The host operations after the second region leave the aggregation of its output, plus the bias. -/
theorem second_tail (V : Valuation τ sig (Elt F)) (src dst : IVec S1700000 32) (norm : FVec F S1700000 .f32) (M : FVec F S100000x32 .f32) (b : FVec F S32 .f32)
    (hsrc : V (Proc.devRef .tc main_v3) = src) (hdst : V (Proc.devRef .tc main_v6) = dst)
    (hnorm : V (Proc.devRef .tc main_v29) = norm) (hM : V (Proc.devRef .tc main_v39) = M) (hb : V (Proc.devRef .tc main_arg5) = b)
    (hv : ∀ e, Valid (src e)) :
    StableHlo.after hostOps2_1 (StableHlo.after hostOps2 V) (Proc.devRef .tc main_v49) = agg32 src dst norm M b := by
  after_results_simp
  rw [hsrc, hdst, hnorm, hM, hb]
  -- the reduced range test, as an opaque vector that is all ones
  generalize hmk : Host.reduce IntOp.andi _ _ reducesTo_S1700000x1_S1700000_d1 h_S_ = mask
  have hones : ∀ e, mask e = 1#1 := fun e => by
    rw [← hmk]
    exact Cert.MaskedTake.reduce_andi_ones _ (fun q => rangeTests_ones src hv q) _ (fun _ => rfl) _ _ e
  -- only the rows differ from `agg32`'s spelling
  refine Eq.trans (congrArg (fun rows : FVec F S1700000x32 .f32 =>
      addf
        (Host.scatterAdd scatter_S100000x32_S1700000x1_S1700000x32_1_0_0_1
          (broadcastInDim S100000x32 ![] bcast_S_S100000x32 (constant S_ .f32 0x00000000#32))
          (broadcastInDim S1700000x1 ![0] bcast_S1700000_S1700000x1_0 dst)
          (mulf rows (broadcastInDim S1700000x32 ![0, 1] bcast_S1700000x1_S1700000x32_0_1 (broadcastInDim S1700000x1 ![0] bcast_S1700000_S1700000x1_0 norm))))
        (broadcastInDim S100000x32 ![0, 1] bcast_S1x32_S100000x32_0_1 (broadcastInDim S1x32 ![1] bcast_S32_S1x32_1 b)))
    (?_ : _ = Host.gather gather_S100000x32_S1700000x1_S1700000x32_1_0_n_n_0_1_132 M (wrappedColumn src))) rfl
  refine Eq.trans ?_ (maskedBy32_ones mask hones src M)
  unfold maskedBy32
  show select _ _ _ = select _ _ _
  refine congr (congr (congrArg select ?_) ?_) ?_
  · exact strip_mask32 mask
  · exact strip_rows32 src M
  · exact strip_fill32

set_option maxHeartbeats 4000000 in
/-- The host operations between the two regions leave the bias vector `b1` as a row. -/
theorem bias_row (V : Valuation τ sig (Elt F)) (b : FVec F S64 .f32) (hb : V (Proc.devRef .tc main_arg3) = b) :
    StableHlo.after hostOps1_1 (StableHlo.after hostOps1 V) (Proc.devRef .tc main_v38) = shapeCast S1x64 b shapeCasts_S64_S1x64 := by
  after_results_simp
  rw [hb]
  rfl

/-! ## With the reference's stages in the places of the index vectors and `norm` -/

open Cert.ReferenceIdeal.ReadP in
/-- The first aggregation of the reference's first product is the reference's stage `v43`. -/
theorem agg64_ref (x0 : FVec F S100000x128 .f32) (x1 : IVec S2x1600000 32) (x2 : FVec F S128x64 .f32) :
    agg64 (val_main_v3 (F := F) x1) (val_main_v6 (F := F) x1) (val_main_v29 (F := F) x1) (val_main_v30 (F := F) x0 x2)
      = val_main_v43 (F := F) x0 x1 x2 := rfl

open Cert.ReferenceIdeal.ReadP in
/-- The second aggregation of the reference's second product, plus `b2`, is the reference's result stage `v64`. -/
theorem agg32_ref (x0 : FVec F S100000x128 .f32) (x1 : IVec S2x1600000 32) (x2 : FVec F S128x64 .f32) (x3 : FVec F S64 .f32)
    (x4 : FVec F S64x32 .f32) (x5 : FVec F S32 .f32) :
    agg32 (val_main_v3 (F := F) x1) (val_main_v6 (F := F) x1) (val_main_v29 (F := F) x1) (val_main_v48 (F := F) x0 x1 x2 x3 x4) x5
      = val_main_v64 (F := F) x0 x1 x2 x3 x4 x5 := rfl

end Cert.KernelIdeal.Tails

end
-- ==== Proof.Region0.lean ====
/-
  The first Pallas region is a matrix product.

  The call multiplies a [100000 × 128] array by a [128 × 64] one, ten grid points of 10000 rows each; the right
  operand is one whole block at every point. At a point the body casts both blocks to bf16 (the identity on the
  extended reals) and multiplies them into a zero accumulator, so entry (r, c) of the block it writes back is the
  sum over k of x(row r of the block, k) · w(k, c). Row r of block t is row 10000·t + r of the array, the ten row
  blocks tile the output, and so the output array after the region is, entry by entry, the sum over k of
  x(i₀, k) · w(k, i₁): the reference's `dot_general` of the two arrays the region was entered with.
-/
import proofs.«426370_j71030169141526_2_alg».proof.Proof.Gen.KernelIdeal.Frame
import proofs.«426370_j71030169141526_2_alg».proof.Proof.ReferenceRead
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem
open Cert.KernelIdeal Cert.KernelIdeal.Gen
open Idealize.ShloMosaic.Pipeline (Dat)

/-! ## The body's product at an index of the block -/

theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Row `r`, inner position `k` of a left block. -/
abbrev lblk (j : S10000x64.Idx) (k : Fin 128) : S10000x128.Idx := fun a => match a with
  | ⟨0, _⟩ => ⟨(j 0).val, (j 0).isLt⟩
  | ⟨1, _⟩ => ⟨k.val, k.isLt⟩
/-- Inner position `k`, column `c` of the right block. -/
abbrev rblk (j : S10000x64.Idx) (k : Fin 128) : S128x64.Idx := fun a => match a with
  | ⟨0, _⟩ => ⟨k.val, k.isLt⟩
  | ⟨1, _⟩ => ⟨(j 1).val, (j 1).isLt⟩

/-- The body's stored value at (r, c): the sum over the 128 inner positions of the left block at (r, k) times the
    right block at (k, c). -/
theorem pay_apply (x0 : Vec Ideal S10000x128 .f32) (x1 : Vec Ideal S128x64 .f32) (j : S10000x64.Idx) :
    k0_pay1 (F := Ideal) x0 x1 j = ∑ k : Fin 128, x0 (lblk j k) * x1 (rblk j k) := by
  unfold k0_pay1
  simp only [matmul]
  rw [Ideal.matmul_constant_zero_apply, ← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx j ((ValueIdx.contrEquiv1 dot_S10000x128_S128x64_S10000x64_1_0_0_1_n_n 128 rfl rfl).symm k) = lblk j k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx j ((ValueIdx.contrEquiv1 dot_S10000x128_S128x64_S10000x64_1_0_0_1_n_n 128 rfl rfl).symm k) = rblk j k := funext fun a => Fin.ext (by
    match a with
    | ⟨0, _⟩ => exact (rhs_axis0 _ _).trans hk
    | ⟨1, _⟩ => exact rhs_axis1 _ _)
  rw [el, er]
  rfl

/-! ## From the ten row blocks to the array -/

open Cert.ReferenceIdeal.ReadP (val_main_v30 val_main_v30_apply lidx_main_v30 ridx_main_v30)

-- the contents of the TensorCore's buffers when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the ten grid points: the left operand's row block moves with the output's, every other
    block index is 0, and the output's row block is the point's number. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks is some point's. -/
theorem idx_onto : ∀ q : Fin 10, ∃ t : Fin cfg0.N, win0_2.index t (0 : Fin 2) = q.val :=
  (by decide +kernel : ∀ q : Fin 10, ∃ t : Fin grid0.N, win0_2.index t (0 : Fin 2) = q.val)

/-- The two arrays the region is entered with, at their literal types. -/
abbrev xarr (c : Dev nD) : S100000x128.Idx → EReal := V c main_arg0
abbrev warr (c : Dev nD) : S128x64.Idx → EReal := V c main_arg2

/-- Their product. -/
abbrev product (c : Dev nD) : S100000x64.Idx → EReal := val_main_v30 (F := Ideal) (xarr V c) (warr V c)

/-- WHAT POINT `t` WRITES BACK is row block `t` of the product of the entry arrays. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  obtain ⟨e0, e1, e2, e3, e4, e5⟩ := idx_facts t
  funext j
  refine (pay_apply (iblk0 V c 0 t) (iblk0 V c 1 t) j).trans ?_
  refine Eq.trans ?_ (val_main_v30_apply (xarr V c) (warr V c) (((cfg0.win 2).blk t).view.emb j)).symm
  refine Finset.sum_congr rfl fun k _ => ?_
  have hl : ((cfg0.win 0).blk t).view.emb (lblk j k) = lidx_main_v30 (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : ((cfg0.win 1).blk t).view.emb (rblk j k) = ridx_main_v30 (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have h0 : iblk0 V c 0 t (lblk j k) = xarr V c (lidx_main_v30 (((cfg0.win 2).blk t).view.emb j) k) := by
    show xarr V c (((cfg0.win 0).blk t).view.emb (lblk j k)) = _
    rw [hl]
  have h1 : iblk0 V c 1 t (rblk j k) = warr V c (ridx_main_v30 (((cfg0.win 2).blk t).view.emb j) k) := by
    show warr V c (((cfg0.win 1).blk t).view.emb (rblk j k)) = _
    rw [hr]
  rw [h0, h1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks tile the output: row `r` lies in block `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have ht' : win0_2.index t (0 : Fin 2) = (i 0).val / 10000 := ht
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY after the region is the product of the arrays it was entered with. -/
theorem out_eq (c : Dev nD) : (dat0 V c).arrAt 2 cfg0.N = product V c :=
  (dat0 V c).arrAt_eq_of_cover 2 (product V c) (fun t _ => flushed_eq V c t) cover

end Cert.KernelIdeal.Region0

end
-- ==== Proof.Region1.lean ====
/-
  The second Pallas region: bias, relu, then a matrix product.

  The call takes a [100000 × 64] array `A`, a [1 × 64] row `β` and a [64 × 32] array `W`, ten grid points of 10000
  rows each; `β` and `W` are one whole block at every point. At a point the body adds the row to every row of the
  block, takes the maximum with 0, casts to bf16 (the identity on the extended reals) and multiplies by `W` into a zero
  accumulator: entry (r, c) of the block it writes back is the sum over k of max(A(r, k) + β(0, k), 0) · W(k, c).
  The ten row blocks tile the output, so the output array after the region is, entry by entry, the sum over k of
  max(A(i₀, k) + β(0, k), 0) · W(k, i₁): the reference's `dot_general` of its relu stage and `W`, when `β` is the bias
  vector laid out as a row.
-/
import proofs.«426370_j71030169141526_2_alg».proof.Proof.Gen.KernelIdeal.Frame
import proofs.«426370_j71030169141526_2_alg».proof.Proof.ReferenceRead
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem
open Cert.KernelIdeal Cert.KernelIdeal.Gen
open Idealize.ShloMosaic.Pipeline (Dat)

/-! ## The body's product at an index of the block -/

theorem lhs_axis0 (i : S10000x32.Idx) (q : dot_S10000x64_S64x32_S10000x32_1_0_0_1_n_n.contr.Idx) :
    (dot_S10000x64_S64x32_S10000x32_1_0_0_1_n_n.lhsIdx i q 0).val = (i 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem lhs_axis1 (i : S10000x32.Idx) (q : dot_S10000x64_S64x32_S10000x32_1_0_0_1_n_n.contr.Idx) :
    (dot_S10000x64_S64x32_S10000x32_1_0_0_1_n_n.lhsIdx i q 1).val = (q ⟨0, by decide⟩).val :=
  dot_S10000x64_S64x32_S10000x32_1_0_0_1_n_n.lhsIdx_val_of_single rfl i q
theorem rhs_axis0 (i : S10000x32.Idx) (q : dot_S10000x64_S64x32_S10000x32_1_0_0_1_n_n.contr.Idx) :
    (dot_S10000x64_S64x32_S10000x32_1_0_0_1_n_n.rhsIdx i q 0).val = (q ⟨0, by decide⟩).val :=
  dot_S10000x64_S64x32_S10000x32_1_0_0_1_n_n.rhsIdx_val_of_single rfl i q
theorem rhs_axis1 (i : S10000x32.Idx) (q : dot_S10000x64_S64x32_S10000x32_1_0_0_1_n_n.contr.Idx) :
    (dot_S10000x64_S64x32_S10000x32_1_0_0_1_n_n.rhsIdx i q 1).val = (i 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- Row `r`, inner position `k` of a left block. -/
abbrev lblk (j : S10000x32.Idx) (k : Fin 64) : S10000x64.Idx := fun a => match a with
  | ⟨0, _⟩ => ⟨(j 0).val, (j 0).isLt⟩
  | ⟨1, _⟩ => ⟨k.val, k.isLt⟩
/-- Inner position `k`, column `c` of the right block. -/
abbrev rblk (j : S10000x32.Idx) (k : Fin 64) : S64x32.Idx := fun a => match a with
  | ⟨0, _⟩ => ⟨k.val, k.isLt⟩
  | ⟨1, _⟩ => ⟨(j 1).val, (j 1).isLt⟩
/-- Position `k` of the bias row. -/
abbrev brow (k : Fin 64) : S1x64.Idx := fun a => match a with
  | ⟨0, _⟩ => ⟨0, Nat.one_pos⟩
  | ⟨1, _⟩ => ⟨k.val, k.isLt⟩

/-- The body's stored value at (r, c): the sum over the 64 inner positions of max(block(r, k) + row(0, k), 0) times the
    right block at (k, c). -/
theorem pay_apply (x0 : Vec Ideal S10000x64 .f32) (x1 : Vec Ideal S1x64 .f32) (x2 : Vec Ideal S64x32 .f32) (j : S10000x32.Idx) :
    k1_pay1 (F := Ideal) x0 x1 x2 j = ∑ k : Fin 64, max (x0 (lblk j k) + x1 (brow k)) 0 * x2 (rblk j k) := by
  unfold k1_pay1
  simp only [matmul]
  rw [Ideal.matmul_constant_zero_apply, ← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = lblk j k := funext fun a => Fin.ext (by
    match a with
    | ⟨0, _⟩ => exact lhs_axis0 _ _
    | ⟨1, _⟩ => exact (lhs_axis1 _ _).trans hk)
  have er : dot_S10000x64_S64x32_S10000x32_1_0_0_1_n_n.rhsIdx j ((ValueIdx.contrEquiv1 dot_S10000x64_S64x32_S10000x32_1_0_0_1_n_n 64 rfl rfl).symm k) = rblk j k := funext fun a => Fin.ext (by
    match a with
    | ⟨0, _⟩ => exact (rhs_axis0 _ _).trans hk
    | ⟨1, _⟩ => exact rhs_axis1 _ _)
  rw [el, er]
  have hb : broadcastTo S10000x64 (shapeCast S1x64 x1 shapeCasts_S1x64_S1x64) broadcasts_S1x64_S10000x64 (lblk j k) = x1 (brow k) := by
    rw [shapeCast_self]
    exact broadcastTo_apply x1 broadcasts_S1x64_S10000x64 (lblk j k) (brow k) (fun a => by
      match a with
      | ⟨0, _⟩ => rfl
      | ⟨1, _⟩ => rfl)
  show max (shapeCast S10000x64 x0 shapeCasts_S10000x64_S10000x64 (lblk j k) + broadcastTo S10000x64 (shapeCast S1x64 x1 shapeCasts_S1x64_S1x64) broadcasts_S1x64_S10000x64 (lblk j k)) (Ideal.ofBits .f32 0x00000000#32) * x2 (rblk j k) = _
  rw [hb, shapeCast_self, Ideal.ofBits_zero_f32]

/-! ## The reference's side: its `dot_general` and its bias-and-relu stage, read at an index -/

open Cert.ReferenceIdeal.ReadP (lidx_main_v48 ridx_main_v48 lhs_main_v48_0 lhs_main_v48_1 rhs_main_v48_0 rhs_main_v48_1
  val_main_v44 val_main_v44_apply idx_main_v44 val_main_v45 val_main_v45_apply idx_main_v45
  val_main_call1_v0 val_main_call1_v0_apply val_main_call1_cst_apply)

/-- The reference's second `dot_general` of ANY two operands, at an index: the sum over the 64 inner positions. -/
theorem dot_apply (L : Cert.ReferenceIdeal.S100000x64.Idx → EReal) (R : Cert.ReferenceIdeal.S64x32.Idx → EReal) (i : Cert.ReferenceIdeal.S100000x32.Idx) :
    Host.dotGeneral (F := Ideal) (φ₁ := .f32) (φ₂ := .f32) Cert.ReferenceIdeal.dot_S100000x64_S64x32_S100000x32_1_0_0_1_n_n none L R i = ∑ k : Fin 64, L (lidx_main_v48 i k) * R (ridx_main_v48 i k) := by
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx i ((ValueIdx.contrEquiv1 Cert.ReferenceIdeal.dot_S100000x64_S64x32_S100000x32_1_0_0_1_n_n 64 rfl rfl).symm k) = lidx_main_v48 i k := funext fun a => Fin.ext (by
    match a with
    | ⟨0, _⟩ => exact lhs_main_v48_0 _ _
    | ⟨1, _⟩ => exact (lhs_main_v48_1 _ _).trans hk)
  have er : Cert.ReferenceIdeal.dot_S100000x64_S64x32_S100000x32_1_0_0_1_n_n.rhsIdx i ((ValueIdx.contrEquiv1 Cert.ReferenceIdeal.dot_S100000x64_S64x32_S100000x32_1_0_0_1_n_n 64 rfl rfl).symm k) = ridx_main_v48 i k := funext fun a => Fin.ext (by
    match a with
    | ⟨0, _⟩ => exact (rhs_main_v48_0 _ _).trans hk
    | ⟨1, _⟩ => exact rhs_main_v48_1 _ _)
  rw [el, er]

/-- Bias, then relu, as the reference spells them, of any array `A` and bias vector `b`:
    `max (A + (b laid along the rows)) 0`. -/
abbrev hidden (A : Cert.ReferenceIdeal.S100000x64.Idx → EReal) (b : Cert.ReferenceIdeal.S64.Idx → EReal) : Cert.ReferenceIdeal.S100000x64.Idx → EReal :=
  maximumf (F := Ideal) (φ := .f32) (addf (F := Ideal) (φ := .f32) A (val_main_v45 (F := Ideal) b)) (val_main_call1_v0 (F := Ideal))

theorem hidden_apply (A : Cert.ReferenceIdeal.S100000x64.Idx → EReal) (b : Cert.ReferenceIdeal.S64.Idx → EReal) (y : Cert.ReferenceIdeal.S100000x64.Idx) :
    hidden A b y = max (A y + b (idx_main_v44 (idx_main_v45 y))) 0 := by
  show max (A y + val_main_v45 (F := Ideal) b y) (val_main_call1_v0 (F := Ideal) y) = _
  rw [val_main_v45_apply, val_main_v44_apply, val_main_call1_v0_apply, val_main_call1_cst_apply]
  show max _ (Ideal.ofBits .f32 0x00000000#32) = _
  rw [Ideal.ofBits_zero_f32]

/-! ## From the ten row blocks to the array -/

-- the contents of the TensorCore's buffers when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the ten grid points: the left operand's row block moves with the output's, every other
    block index is 0. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every one of the ten row blocks is some point's. -/
theorem idx_onto : ∀ q : Fin 10, ∃ t : Fin cfg1.N, win1_3.index t (0 : Fin 2) = q.val :=
  (by decide +kernel : ∀ q : Fin 10, ∃ t : Fin grid1.N, win1_3.index t (0 : Fin 2) = q.val)

/-- The three arrays the region is entered with, at their literal types. -/
abbrev aarr (c : Dev nD) : S100000x64.Idx → EReal := V c main_v37
abbrev barr (c : Dev nD) : S1x64.Idx → EReal := V c main_v38
abbrev warr (c : Dev nD) : S64x32.Idx → EReal := V c main_arg4

/-- What the region computes, in the reference's spelling, when the bias row holds the vector `b`. -/
abbrev product (c : Dev nD) (b : Cert.ReferenceIdeal.S64.Idx → EReal) : S100000x32.Idx → EReal :=
  Host.dotGeneral (F := Ideal) (φ₁ := .f32) (φ₂ := .f32) Cert.ReferenceIdeal.dot_S100000x64_S64x32_S100000x32_1_0_0_1_n_n none (hidden (aarr V c) b) (warr V c)

/-- WHAT POINT `t` WRITES BACK is row block `t` of that product. -/
theorem flushed_eq (c : Dev nD) (b : Cert.ReferenceIdeal.S64.Idx → EReal) (hb : barr V c = val_main_v44 (F := Ideal) b) (t : Fin cfg1.N) :
    (dat1 V c).flushed 3 t = ((cfg1.win 3).blk t).view.read (Elt Ideal) (product V c b) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S1x64) zero_offsets, View.ld_unit_zero (S := S64x32) zero_offsets]
  obtain ⟨e0, e1, e2, e3, e4, e5, e6, e7⟩ := idx_facts t
  funext j
  refine (pay_apply (iblk1 V c 0 t) (iblk1 V c 1 t) (iblk1 V c 2 t) j).trans ?_
  refine Eq.trans ?_ (dot_apply (hidden (aarr V c) b) (warr V c) (((cfg1.win 3).blk t).view.emb j)).symm
  refine Finset.sum_congr rfl fun k _ => ?_
  rw [hidden_apply]
  have hl : ((cfg1.win 0).blk t).view.emb (lblk j k) = lidx_main_v48 (((cfg1.win 3).blk t).view.emb j) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have hr : ((cfg1.win 2).blk t).view.emb (rblk j k) = ridx_main_v48 (((cfg1.win 3).blk t).view.emb j) k := by
    funext a; apply Fin.ext
    match a with
    | ⟨0, _⟩ => show win1_2.index t (0 : Fin 2) * 64 + 1 * k.val = k.val; omega
    | ⟨1, _⟩ => show win1_2.index t (1 : Fin 2) * 32 + 1 * (j 1).val = win1_3.index t (1 : Fin 2) * 32 + 1 * (j 1).val; omega
  have hm : ((cfg1.win 1).blk t).view.emb (brow k) = idx_main_v45 (lidx_main_v48 (((cfg1.win 3).blk t).view.emb j) k) := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h0 : iblk1 V c 0 t (lblk j k) = aarr V c (lidx_main_v48 (((cfg1.win 3).blk t).view.emb j) k) := by
    show aarr V c (((cfg1.win 0).blk t).view.emb (lblk j k)) = _
    rw [hl]
  have h1 : iblk1 V c 1 t (brow k) = b (idx_main_v44 (idx_main_v45 (lidx_main_v48 (((cfg1.win 3).blk t).view.emb j) k))) := by
    show barr V c (((cfg1.win 1).blk t).view.emb (brow k)) = _
    rw [hm, hb, val_main_v44_apply]
  have h2 : iblk1 V c 2 t (rblk j k) = warr V c (ridx_main_v48 (((cfg1.win 3).blk t).view.emb j) k) := by
    show warr V c (((cfg1.win 2).blk t).view.emb (rblk j k)) = _
    rw [hr]
  rw [h0, h1, h2]

/-- An index of the output array is in point `t`'s block iff each coordinate is in the block's range on its axis. -/
theorem mem_blk (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v39).slice (win1_3.rect t)).set ↔ _
  rw [View.set_slice_whole, Rect.mem_set_unit]
  exact Iff.rfl

/-- The ten row blocks tile the output: row `r` lies in block `r / 10000`. -/
theorem cover (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := idx_onto ⟨(i 0).val / 10000, by omega⟩
  have ht' : win1_3.index t (0 : Fin 2) = (i 0).val / 10000 := ht
  obtain ⟨e0, e1, e2, e3, e4, e5, e6, e7⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 32 ≤ (i 1).val ∧ (i 1).val < win1_3.index t (1 : Fin 2) * 32 + 32; omega

/-- THE OUTPUT ARRAY after the region: the reference's `dot_general` of `max (A + b) 0` and `W`, for the arrays `A`, `W`
    the region was entered with, when the bias row it was entered with holds `b`. -/
theorem out_eq (c : Dev nD) (b : Cert.ReferenceIdeal.S64.Idx → EReal) (hb : barr V c = val_main_v44 (F := Ideal) b) :
    (dat1 V c).arrAt 3 cfg1.N = product V c b :=
  (dat1 V c).arrAt_eq_of_cover 3 (product V c b) (fun t _ => flushed_eq V c b hb t) cover

end Cert.KernelIdeal.Region1

end
-- ==== Proof.KernelValue.lean ====
/-
  The kernel program's result is the reference's, as a function of the arguments.

  Read from its last host operation backwards, the program is: add the bias `b2` to an aggregation of the second
  Pallas region's output; that region's inputs are `b1` as a row, `W2`, and the same aggregation of the first region's
  output; the first region's inputs are `x` and `W1`. With each region's output the reference's `dot_general` stage,
  and the index vectors and `norm` the reference's own stages, every step lands on the reference's next stage.
-/
import proofs.«426370_j71030169141526_2_alg».proof.Proof.Carry
import proofs.«426370_j71030169141526_2_alg».proof.Proof.Tails
import proofs.«426370_j71030169141526_2_alg».proof.Proof.Region0
import proofs.«426370_j71030169141526_2_alg».proof.Proof.Region1
import Idealize.ShloMosaic.Lib.Pipeline.Value

set_option maxRecDepth 16384

noncomputable section

namespace Cert.KernelIdeal.Value

open Cert.KernelIdeal Cert.KernelIdeal.Gen Cert.KernelIdeal.Carry
open Idealize.ShloMosaic Idealize.ShloMosaic.TcCoe Idealize.SL.Sem Idealize.ShloMosaic.StableHlo
open Cert.MaskedTake (Valid)

variable (m : (ℓ : Loc nD τ sig) → Buf (Elt Ideal) ℓ) (ρ : Dev nD → PrngReg)

/-- The first region's output at its exit: the product of `x` and `W1`. -/
theorem W4_v30 (c : Dev nD) :
    W4 m ρ c (Proc.devRef .tc main_v30) = Cert.ReferenceIdeal.ReadP.val_main_v30 (F := Ideal) (a0 m c) (a2 m c) := by
  refine (W4_arr m ρ c 2).trans ?_
  refine (Region0.out_eq (V3 m ρ) c).trans ?_
  show Cert.ReferenceIdeal.ReadP.val_main_v30 (F := Ideal) (W3 m ρ c (Proc.devRef .tc main_arg0)) (W3 m ρ c (Proc.devRef .tc main_arg2)) = _
  rw [W3_arg0 m ρ c, W3_arg2 m ρ c]

/-- The first aggregation, at the second region's entry, is the reference's stage `v43`. -/
theorem W6_v37 (c : Dev nD) (hv : ∀ e, Valid (Cert.ReferenceIdeal.ReadP.val_main_v3 (F := Ideal) (a1 m c) e)) :
    W6 m ρ c (Proc.devRef .tc main_v37) = Cert.ReferenceIdeal.ReadP.val_main_v43 (F := Ideal) (a0 m c) (a1 m c) (a2 m c) :=
  (Tails.first_tail (W4 m ρ c) _ _ _ _ (W4_v3 m ρ c) (W4_v6 m ρ c) (W4_v29 m ρ c) (W4_v30 m ρ c) hv).trans
    (Tails.agg64_ref _ _ _)

/-- The bias row at the second region's entry is `b1` along the columns: the reference's stage `v44`. -/
theorem W6_v38 (c : Dev nD) : W6 m ρ c (Proc.devRef .tc main_v38) = Cert.ReferenceIdeal.ReadP.val_main_v44 (F := Ideal) (a3 m c) := by
  refine (Tails.bias_row (W4 m ρ c) _ (W4_arg3 m ρ c)).trans ?_
  funext i
  rw [Cert.ReferenceIdeal.ReadP.val_main_v44_apply]
  exact shapeCast_apply (a3 m c) _ i (Cert.ReferenceIdeal.ReadP.idx_main_v44 i) (by
    rw [Shape.rowMajor_val_one, Shape.rowMajor_val_two]
    show (i 1).val = (i 0).val * 64 + (i 1).val
    have h0 : (i 0).val < 1 := (i 0).isLt
    omega)

/-- The second region's output at its exit is the reference's second product, stage `v48`. -/
theorem W7_v39 (c : Dev nD) (hv : ∀ e, Valid (Cert.ReferenceIdeal.ReadP.val_main_v3 (F := Ideal) (a1 m c) e)) :
    W7 m ρ c (Proc.devRef .tc main_v39) = Cert.ReferenceIdeal.ReadP.val_main_v48 (F := Ideal) (a0 m c) (a1 m c) (a2 m c) (a3 m c) (a4 m c) := by
  refine (W7_arr m ρ c 3).trans ?_
  refine (Region1.out_eq (V6 m ρ) c (a3 m c) (W6_v38 m ρ c)).trans ?_
  exact congrArg₂ (fun (A : Cert.ReferenceIdeal.S100000x64.Idx → EReal) (W : Cert.ReferenceIdeal.S64x32.Idx → EReal) =>
      Host.dotGeneral (F := Ideal) (φ₁ := .f32) (φ₂ := .f32) Cert.ReferenceIdeal.dot_S100000x64_S64x32_S100000x32_1_0_0_1_n_n none (Region1.hidden A (a3 m c)) W)
    (W6_v37 m ρ c hv) (W6_arg4 m ρ c)

/-- THE RESULT: the last boundary's contents at the result buffer are the reference's last stage of the arguments. -/
theorem W9_v49 (c : Dev nD) (hv : ∀ e, Valid (Cert.ReferenceIdeal.ReadP.val_main_v3 (F := Ideal) (a1 m c) e)) :
    W9 m ρ c (Proc.devRef .tc main_v49)
      = Cert.ReferenceIdeal.ReadP.val_main_v64 (F := Ideal) (a0 m c) (a1 m c) (a2 m c) (a3 m c) (a4 m c) (a5 m c) :=
  (Tails.second_tail (W7 m ρ c) _ _ _ _ _ (W7_v3 m ρ c) (W7_v6 m ρ c) (W7_v29 m ρ c) (W7_v39 m ρ c hv) (W7_arg5 m ρ c) hv).trans
    (Tails.agg32_ref _ _ _ _ _ _)

end Cert.KernelIdeal.Value

end
-- ==== Proof.PreRead.lean ====
/-
  What the precondition says of the edge sources.

  The precondition is a conjunction whose last conjunct is "every entry of row 0 of the edge list lies in
  `[-100000, 100000)`", printed as an `and`-reduction over the 1 600 000 entries of the pointwise test. The conjunction
  being 1, that reduction is 1, so the test is 1 at every entry: every edge source is a valid row index.
-/
import proofs.«426370_j71030169141526_2_alg».proof.Pre_finite_inputs
import proofs.«426370_j71030169141526_2_alg».proof.Proof.Gen.Pre_finite_inputs
import proofs.«426370_j71030169141526_2_alg».proof.Proof.MaskedTake
import Idealize.ShloMosaic.Lib.ReduceAll
import Idealize.ShloMosaic.Lib.ValueIdx
import Idealize.ShloMosaic.PureOps.Ideal

noncomputable section

namespace Cert.PreRead

open Idealize.ShloMosaic Cert.Pre_finite_inputs Cert.MaskedTake

instance : Subsingleton S_.Idx := ⟨fun a b => funext fun d => d.elim0⟩

/-- Row 0 of the edge list as a vector: the edge sources. -/
abbrev sources (ei : IVec S2x1600000 32) : IVec S1600000 32 :=
  shapeCast S1600000 (extractStridedSlice S1x1600000 ![0, 0] ei Facts.slices_S2x1600000_S1x1600000_0_0) Facts.shapeCasts_S1x1600000_S1600000

/-- Under the precondition every edge source is a valid row index. -/
theorem sources_valid (x : FVec Ideal S100000x128 .f32) (ei : IVec S2x1600000 32) (w1 : FVec Ideal S128x64 .f32)
    (b1 : FVec Ideal S64 .f32) (w2 : FVec Ideal S64x32 .f32) (b2 : FVec Ideal S32 .f32)
    (h : Cert.Pre_finite_inputs.fn (F := Ideal) x ei w1 b1 w2 b2 = fun _ => 1#1) (e : S1600000.Idx) :
    Valid (sources ei e) := by
  have h0 := congrFun h ValueIdx.ix0
  dsimp only [Cert.Pre_finite_inputs.fn, Cert.Pre_finite_inputs.fn_part1] at h0
  obtain ⟨-, hall⟩ := IntOp.andi_eq_one.1 h0
  have he := Host.reduce_andi_all _ _ _ _ _ hall e
  obtain ⟨hge, hlt⟩ := IntOp.andi_eq_one.1 he
  exact ⟨hge, hlt⟩

end Cert.PreRead

end
-- ==== Proof.lean ====
/-
  A two-layer graph convolution: two Pallas matrix products with the sparse gather / scale / scatter-add between
  them on the host, against the same network written in jnp.

  Both programs compute, from node features `x`, an edge list and two weight / bias pairs,
      out = Agg (relu (Agg (x · W1) + b1) · W2) + b2,
  where `Agg M` gathers the rows of `M` at the edge sources (self-loops appended), scales row `e` by the symmetric
  degree normalisation `norm e` and scatter-adds it at the edge targets. The host operations that make the index
  vectors, `norm`, the scaling and the scatter-add are the same in the two programs. They differ in three places:
  each product is a Pallas call over ten row blocks with bf16 casts, which on the extended reals is the reference's
  `dot_general` (the casts are the identity, the blocks tile the rows); the kernel adds `b1` and applies the relu inside
  its second call; and the kernel gathers rows with out-of-range reads replaced by a fill pattern, where the reference
  clamps. The last is why the statement carries the precondition that every edge source is a valid row index,
  `-100000 ≤ src < 100000`: on such indices the two gathers read the same rows.
-/
import proofs.«426370_j71030169141526_2_alg».proof.Defs
import proofs.«426370_j71030169141526_2_alg».proof.Proof.Gen.Kernel.Frame
import proofs.«426370_j71030169141526_2_alg».proof.Proof.Gen.KernelIdeal.Frame
import proofs.«426370_j71030169141526_2_alg».proof.Proof.Gen.ReferenceIdeal
import proofs.«426370_j71030169141526_2_alg».proof.Proof.Gen.Pre_finite_inputs
import proofs.«426370_j71030169141526_2_alg».proof.Proof.ReferenceRun
import proofs.«426370_j71030169141526_2_alg».proof.Proof.ReferenceRead
import proofs.«426370_j71030169141526_2_alg».proof.Proof.KernelRun
import proofs.«426370_j71030169141526_2_alg».proof.Proof.KernelValue
import proofs.«426370_j71030169141526_2_alg».proof.Proof.PreRead
import proofs.«426370_j71030169141526_2_alg».proof.Proof.MaskedTake
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Carry (a0 a1 a2 a3 a4 a5)

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Under the precondition every entry of the kernel's index vector (edge sources, then node numbers) is a valid row
    index: the sources by the precondition's last conjunct, the node numbers because they are below 100000. -/
theorem index_vector_valid (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.ReferenceIdeal.S1700000.Idx) :
    Cert.MaskedTake.Valid (Cert.ReferenceIdeal.ReadP.val_main_v3 (F := Ideal) (a1 m c) e) := by
  have hs : ∀ e', Cert.MaskedTake.Valid (Cert.PreRead.sources (a1 m c) e') :=
    fun e' => Cert.PreRead.sources_valid _ _ _ _ _ _ (hpre c) e'
  exact Cert.MaskedTake.valid_concat (Cert.PreRead.sources (a1 m c)) hs _ e

/-- From memories that agree on the arguments, both programs end with the reference's last stage of those arguments. -/
theorem algebraic : Cert.algebraic_KernelIdeal_ReferenceIdeal := by
  intro m ρ m' ρ' hpre hagree
  refine ⟨fun c => Cert.ReferenceIdeal.ReadP.val_main_v64 (F := Ideal) (a0 m c) (a1 m c) (a2 m c) (a3 m c) (a4 m c) (a5 m c), ?_, ?_⟩
  · exact (θ_run Cert.KernelIdeal.defs _ _).mono
      (fun r h c => ⟨(h c).1.trans (Cert.KernelIdeal.Value.W9_v49 m ρ c (index_vector_valid m hpre c)), (h c).2⟩)
      (Cert.KernelIdeal.Result.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v64_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
